-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S1024x4096 : Shape := ⟨2, ![1024, 4096]⟩
abbrev S1x4096 : Shape := ⟨2, ![1, 4096]⟩
abbrev S1024x256 : Shape := ⟨2, ![1024, 256]⟩
abbrev S4096 : Shape := ⟨1, ![4096]⟩
abbrev S4096x1 : Shape := ⟨2, ![4096, 1]⟩
abbrev S1x4096x256 : Shape := ⟨3, ![1, 4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .bf16⟩
  | .hbm, ⟨4, _⟩ => ⟨S4096x256, .f32⟩
  | .hbm, ⟨5, _⟩ => ⟨S1x4096x256, .f32⟩
  | .local _ .vmem, ⟨0, _⟩ => ⟨S1024x4096, .f32⟩
  | .local _ .vmem, ⟨1, _⟩ => ⟨S1024x4096, .f32⟩
  | .local _ .vmem, ⟨2, _⟩ => ⟨S4096x256, .bf16⟩
  | .local _ .vmem, ⟨3, _⟩ => ⟨S256x256, .f32⟩
  | .local _ .vmem, ⟨4, _⟩ => ⟨S4096x256, .f32⟩
  | .local _ .vmem, ⟨5, _⟩ => ⟨S1x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v9 : BitVec 32 := Scalar.muli arg0 c1024_i32
  let v10 : Index := Scalar.indexCast v9
  let c0_2 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x4096_S1024x4096_0_0 : ∀ a, (![0, 0] : Fin 2 → Nat) a + S1024x4096.size a ≤ S1024x4096.size a
  h_S1024x4096 : 0 < S1024x4096.numel
  natLt_1_32 : 1 < 32
  h_S1024x256 : 0 < S1024x256.numel
  shapeCasts_S1024x256_S1024x256 : S1024x256.ShapeCasts S1024x256
  shapeCasts_S4096x256_S4096x256 : S4096x256.ShapeCasts S4096x256
  reduces_S1024x4096_S4096 : S1024x4096.Reduces [0] S4096
  shapeCasts_S4096_S1x4096 : S4096.ShapeCasts S1x4096
  transposes_S1x4096_p1_0_S4096x1 : S1x4096.Transposes [1, 0] S4096x1
  broadcasts_S4096x1_S4096x256 : S4096x1.Broadcasts S4096x256
  inb_S256x256_S256x256_0_0 : ∀ a, (![0, 0] : Fin 2 → Nat) a + S256x256.size a ≤ S256x256.size a
  h_S256x256 : 0 < S256x256.numel
  bcast_S4096x256_S1x4096x256_1_2 : S4096x256.BroadcastsInDim S1x4096x256 (![1, 2] : Fin 2 → Fin S1x4096x256.rank)
  dot_S1024x4096_S1024x256_S4096x256_0_0_1_1_n_n_wf : DotDims.WF S1024x4096 S1024x256 S4096x256 [0] [0] [1] [1] [] []
  dot_S4096x256_S256x256_S4096x256_1_1_0_0_n_n_wf : DotDims.WF S4096x256 S256x256 S4096x256 [1] [1] [0] [0] [] []
  hrank0 : 0 < grid0.rank
  k0_off1_inb : ∀ i : grid0.Coords, ∀ a, (k0_off1 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)

variable [Facts₀]

def dot_S1024x4096_S1024x256_S4096x256_0_0_1_1_n_n : DotDims S1024x4096 S1024x256 S4096x256 where
  lhsContracting := [0]
  rhsContracting := [0]
  lhsNonContracting := [1]
  rhsNonContracting := [1]
  lhsBatch := []
  rhsBatch := []
  wf := dot_S1024x4096_S1024x256_S4096x256_0_0_1_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x4096x256 : Shape := ⟨3, ![1, 4096, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x256, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S256x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S1x4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S256x256_S256x256_1_0 : S256x256.Transposes [1, 0] S256x256
  bcast_S_S4096x256 : S_.BroadcastsInDim S4096x256 (![] : Fin 0 → Fin S4096x256.rank)
  bcast_S4096x256_S1x4096x256_1_2 : S4096x256.BroadcastsInDim S1x4096x256 (![1, 2] : Fin 2 → Fin S1x4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.PiecesIdeal.lean ====
/- What each of the body's three control cases leaves in the output block and in the carried row of column sums,
   as the body's arithmetic applied to what the case found there.

   First point: both are reset to zero, then updated. Middle points: updated. Last point: updated, then the output
   block is replaced by the finished layer computed from the updated block and the updated row. -/
import proofs.«110081_g57251914056251_cont_9to1c4b_270_11_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- The 1024 rows of the 16-bit copy of the features that the body loads at a grid point: rows 1024 t to
    1024 t + 1023 at point t. -/
def rowsAt (i : grid0.Coords) (x1 : Vec F S4096x256 .bf16) : Vec F S1024x256 .bf16 :=
  View.ld x1 (Rect.unit (s := S4096x256) (k0_off1 i) S1024x256.size (k0_off1_inb i))

/-- The update of the output block: what was there plus the contraction of this point's 1024 rows. -/
abbrev stepOut (i : grid0.Coords) (x0 : Vec F S1024x4096 .f32) (x1 : Vec F S4096x256 .bf16) (acc : Vec F S4096x256 .f32) :
    Vec F S4096x256 .f32 := k0_pay3 x0 (rowsAt i x1) acc

/-- The update of the row of column sums: what was there plus this point's 1024 rows summed down each column. -/
abbrev stepDeg (x0 : Vec F S1024x4096 .f32) (dg : Vec F S1x4096 .f32) : Vec F S1x4096 .f32 := k0_pay4 x0 dg

/-- First point, output block: the update of the zero block. -/
theorem out_first (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : cond0_0 i) (hc1 : ¬cond0_1 i) (x0 : Vec F S1024x4096 .f32) (x1 : Vec F S4096x256 .bf16) (x2 : Vec F S256x256 .f32) :
    out0_A_3 c i arg1 harg1 arg2 harg2 arg3 harg3 arg4 harg4 arg5 harg5 hc0 hc1 x0 x1 x2 = stepOut i x0 x1 k0_pay1 := by
  unfold out0_A_3
  rw [View.read_writes_eq_canon _ _ _ (cover0_A_3 c i arg1 harg1 arg2 harg2 arg3 harg3 arg4 harg4 arg5 harg5 hc0 hc1 x0 x1 x2)]
  unfold kernelRun0_A
  dsimp only
  sl_unfold_words
  rw [View.canon_cons_unit_zero (S := S4096x256) zero_offsets]
  simp only [View.readAt_eq_ld, harg1.read_unread, harg2.read_unread, View.ld_unit_zero (S := S1024x4096) zero_offsets,
    View.readCov_unit_zero (S := S4096x256) _ zero_offsets]
  rfl

/-- First point, column sums: the update of the zero row. -/
theorem deg_first (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : cond0_0 i) (hc1 : ¬cond0_1 i) (x0 : Vec F S1024x4096 .f32) (x1 : Vec F S4096x256 .bf16) (x2 : Vec F S256x256 .f32) :
    sout0_A_0 c i arg1 harg1 arg2 harg2 arg3 harg3 arg4 harg4 arg5 harg5 hc0 hc1 x0 x1 x2 = stepDeg x0 k0_pay2 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x4096) zero_offsets]
  simp only [View.readAt_eq_ld, harg1.read_unread, View.ld_unit_zero (S := S1024x4096) zero_offsets,
    View.readCov_unit_zero (S := S1x4096) _ zero_offsets]

/-- Middle points, output block: the update of what the point before left. -/
theorem out_mid (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : ¬cond0_1 i) (x0 : Vec F S1024x4096 .f32) (x1 : Vec F S4096x256 .bf16) (x2 : Vec F S256x256 .f32) (xo3 : Vec F S4096x256 .f32) (xs0 : Vec F S1x4096 .f32) :
    out0_B_3 c i arg1 harg1 arg2 harg2 arg3 harg3 arg4 harg4 arg5 harg5 hc0 hc1 x0 x1 x2 xo3 xs0 = stepOut i x0 x1 xo3 := by
  unfold out0_B_3
  rw [View.read_writes_eq_canon _ _ _ (cover0_B_3 c i arg1 harg1 arg2 harg2 arg3 harg3 arg4 harg4 arg5 harg5 hc0 hc1 x0 x1 x2 xo3 xs0)]
  unfold kernelRun0_B
  dsimp only
  sl_unfold_words
  rw [View.canon_unit_zero (S := S4096x256) zero_offsets]
  simp only [View.readAt_eq_ld, harg1.read_unread, harg2.read_unread, harg4.read_unread,
    View.ld_unit_zero (S := S1024x4096) zero_offsets, View.ld_unit_zero (S := S4096x256) zero_offsets]
  rfl

/-- Middle points, column sums: the update of what the point before left. -/
theorem deg_mid (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : ¬cond0_1 i) (x0 : Vec F S1024x4096 .f32) (x1 : Vec F S4096x256 .bf16) (x2 : Vec F S256x256 .f32) (xo3 : Vec F S4096x256 .f32) (xs0 : Vec F S1x4096 .f32) :
    sout0_B_0 c i arg1 harg1 arg2 harg2 arg3 harg3 arg4 harg4 arg5 harg5 hc0 hc1 x0 x1 x2 xo3 xs0 = stepDeg x0 xs0 := by
  unfold sout0_B_0
  rw [View.read_writes_eq_canon _ _ _ (scover0_B_0 c i arg1 harg1 arg2 harg2 arg3 harg3 arg4 harg4 arg5 harg5 hc0 hc1 x0 x1 x2 xo3 xs0)]
  unfold kernelRun0_B
  dsimp only
  sl_unfold_words
  rw [View.canon_unit_zero (S := S1x4096) zero_offsets]
  simp only [View.readAt_eq_ld, harg1.read_unread, harg5.read_unread,
    View.ld_unit_zero (S := S1024x4096) zero_offsets, View.ld_unit_zero (S := S1x4096) zero_offsets]

/-- Last point, output block: the finished layer from the updated row, the updated block and the linear map. -/
theorem out_last (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : cond0_1 i) (x0 : Vec F S1024x4096 .f32) (x1 : Vec F S4096x256 .bf16) (x2 : Vec F S256x256 .f32) (xo3 : Vec F S4096x256 .f32) (xs0 : Vec F S1x4096 .f32) :
    out0_C_3 c i arg1 harg1 arg2 harg2 arg3 harg3 arg4 harg4 arg5 harg5 hc0 hc1 x0 x1 x2 xo3 xs0 = k0_pay5 (stepDeg x0 xs0) (stepOut i x0 x1 xo3) x2 := by
  unfold out0_C_3
  rw [View.read_writes_eq_canon _ _ _ (cover0_C_3 c i arg1 harg1 arg2 harg2 arg3 harg3 arg4 harg4 arg5 harg5 hc0 hc1 x0 x1 x2 xo3 xs0)]
  unfold kernelRun0_C
  dsimp only
  sl_unfold_words
  rw [View.canon_cons_unit_zero (S := S4096x256) zero_offsets]
  simp only [View.readAt_eq_ld, harg1.read_unread, harg2.read_unread, harg3.read_unread, harg4.read_unread, harg5.read_unread,
    View.ld_unit_zero (S := S1024x4096) zero_offsets, View.ld_unit_zero (S := S4096x256) zero_offsets,
    View.ld_unit_zero (S := S1x4096) zero_offsets, View.ld_unit_zero (S := S256x256) zero_offsets,
    View.readCov_unit_zero (S := S4096x256) _ zero_offsets, View.readCov_unit_zero (S := S1x4096) _ zero_offsets]
  rfl

/-- Last point, column sums: the update of what the point before left. -/
theorem deg_last (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : cond0_1 i) (x0 : Vec F S1024x4096 .f32) (x1 : Vec F S4096x256 .bf16) (x2 : Vec F S256x256 .f32) (xo3 : Vec F S4096x256 .f32) (xs0 : Vec F S1x4096 .f32) :
    sout0_C_0 c i arg1 harg1 arg2 harg2 arg3 harg3 arg4 harg4 arg5 harg5 hc0 hc1 x0 x1 x2 xo3 xs0 = stepDeg x0 xs0 := by
  unfold sout0_C_0
  rw [View.read_writes_eq_canon _ _ _ (scover0_C_0 c i arg1 harg1 arg2 harg2 arg3 harg3 arg4 harg4 arg5 harg5 hc0 hc1 x0 x1 x2 xo3 xs0)]
  unfold kernelRun0_C
  dsimp only
  sl_unfold_words
  rw [View.canon_unit_zero (S := S1x4096) zero_offsets]
  simp only [View.readAt_eq_ld, harg1.read_unread, harg5.read_unread,
    View.ld_unit_zero (S := S1024x4096) zero_offsets, View.ld_unit_zero (S := S1x4096) zero_offsets]

end Cert.KernelIdeal.Pieces

end
-- ==== Proof.LayerSpec.lean ====
/- The layer as one function of its three argument arrays, over the extended reals, and the two facts about finite
   sums that join a contraction taken 1024 rows at a time to the contraction over all 4096 rows.

   Write a for the 4096 x 4096 weight array, x for the 4096 x 256 features and u for the 256 x 256 linear map.
   For an output row i (a column of a) let deg i be the sum of column i of a, and let agg i d be the sum, over the
   rows j whose entry a (j, i) is positive, of x (j, d). The layer's entry (i, d) is the larger of zero and the sum
   over k of (agg i k / deg i) * u (d, k). -/
import Idealize.ShloMosaic.Lib.ValueIdx
import Idealize.ShloMosaic.PureOps.Ideal.Laws
import Mathlib.Algebra.BigOperators.Fin
import Mathlib.Algebra.BigOperators.Intervals

noncomputable section

open scoped BigOperators

namespace Cert.LayerSpec

open Idealize.ShloMosaic Idealize.ShloMosaic.ValueIdx

/-! ## The indicator of a positive entry -/

/-- One where the entry is above zero, zero elsewhere (zero too at an entry that is zero or below, the
    infinities included): the comparison's bit read as a number. -/
def ind (v : EReal) : EReal :=
  (((FloatOps.cmpf (F := Ideal) (φ := .f32) .ogt v (Ideal.ofBits .f32 0x00000000#32)).toNat : ℝ) : EReal)

/-- A one-bit word widened to 32 bits and read signed is the bit read unsigned. -/
theorem bit_signed_eq_unsigned : ∀ b : BitVec 1, (b.setWidth 32).toInt = (b.toNat : ℤ) := by decide

/-- The comparison's bit, widened and converted as a signed integer, is the indicator. -/
theorem ind_of_signed (v : EReal) :
    (FloatOps.sitofp (F := Ideal) .f32
        ((FloatOps.cmpf (F := Ideal) (φ := .f32) .ogt v (Ideal.ofBits .f32 0x00000000#32)).setWidth 32) : EReal) = ind v := by
  show ((((FloatOps.cmpf (F := Ideal) (φ := .f32) .ogt v (Ideal.ofBits .f32 0x00000000#32)).setWidth 32).toInt : ℝ) : EReal) = _
  rw [bit_signed_eq_unsigned]
  unfold ind
  norm_cast

/-- The comparison's bit converted as an unsigned integer is the indicator. -/
theorem ind_of_unsigned (v : EReal) :
    (FloatOps.uitofp (F := Ideal) .f32
        (FloatOps.cmpf (F := Ideal) (φ := .f32) .ogt v (Ideal.ofBits .f32 0x00000000#32)) : EReal) = ind v := rfl

/-! ## The layer -/

abbrev SAdj : Shape := ⟨2, ![4096, 4096]⟩
abbrev SFeat : Shape := ⟨2, ![4096, 256]⟩
abbrev SLin : Shape := ⟨2, ![256, 256]⟩

/-- Column i of the weights, summed. -/
def deg (a : SAdj.Idx → EReal) (i : Fin 4096) : EReal := ∑ j : Fin 4096, a (ix2 j i)

/-- The features of the rows with a positive weight in column i, summed. -/
def agg (x : SFeat.Idx → EReal) (a : SAdj.Idx → EReal) (i : Fin 4096) (d : Fin 256) : EReal :=
  ∑ j : Fin 4096, ind (a (ix2 j i)) * x (ix2 j d)

/-- The layer's entry from a row's aggregate and degree: the linear map applied to the quotient, cut off at zero. -/
def entry (u : SLin.Idx → EReal) (g : Fin 256 → EReal) (dg : EReal) (d : Fin 256) : EReal :=
  max (∑ k : Fin 256, Ideal.div (g k) dg * u (ix2 d k)) (Ideal.ofBits .f32 0x00000000#32)

/-- The layer, as a 4096 x 256 array. -/
def layer (x : SFeat.Idx → EReal) (a : SAdj.Idx → EReal) (u : SLin.Idx → EReal) : SFeat.Idx → EReal :=
  fun y => entry u (agg x a (y 0)) (deg a (y 0)) (y 1)

/-! ## Sums taken a block at a time -/

/-- A function on the first N naturals continued by zero. -/
def ext {N : ℕ} (g : Fin N → EReal) (k : ℕ) : EReal := if h : k < N then g ⟨k, h⟩ else 0

theorem ext_of_lt {N : ℕ} (g : Fin N → EReal) {k : ℕ} (h : k < N) : ext g k = g ⟨k, h⟩ := dif_pos h

/-- The sum of the first n blocks of B terms. -/
def firstBlocks (B : ℕ) (f : ℕ → EReal) (n : ℕ) : EReal := ∑ k ∈ Finset.range (B * n), f k

theorem firstBlocks_zero (B : ℕ) (f : ℕ → EReal) : firstBlocks B f 0 = 0 := by
  unfold firstBlocks; rw [Nat.mul_zero, Finset.range_zero, Finset.sum_empty]

/-- One more block adds that block's B terms. -/
theorem firstBlocks_succ (B : ℕ) (f : ℕ → EReal) (n : ℕ) :
    firstBlocks B f (n + 1) = firstBlocks B f n + ∑ j : Fin B, f (B * n + j.val) := by
  unfold firstBlocks
  rw [Nat.mul_succ, Finset.sum_range_add, Fin.sum_univ_eq_sum_range (fun j => f (B * n + j)) B]

/-- All the blocks together are the whole sum. -/
theorem firstBlocks_all {N : ℕ} (B n : ℕ) (hN : B * n = N) (g : Fin N → EReal) :
    firstBlocks B (ext g) n = ∑ k : Fin N, g k := by
  unfold firstBlocks
  rw [hN, ← Fin.sum_univ_eq_sum_range (ext g) N]
  exact Finset.sum_congr rfl fun k _ => ext_of_lt g k.isLt

end Cert.LayerSpec

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.PayloadIdeal.lean ====
/- The body's three pieces of arithmetic read at one entry, over the extended reals: the update of the output
   block adds, at (p, q), the sum over this point's 1024 rows j of [row j has a positive weight in column p] times
   the feature (j, q); the update of the row of column sums adds, at column p, the sum of the 1024 weights in that
   column; and the finishing step takes the larger of zero and the sum over k of (block (p, k) / sums p) * map (q, k). -/
import proofs.«110081_g57251914056251_cont_9to1c4b_270_11_alg».proof.Proof.PiecesIdeal
import proofs.«110081_g57251914056251_cont_9to1c4b_270_11_alg».proof.Proof.LayerSpec
import proofs.«110081_g57251914056251_cont_9to1c4b_270_11_alg».proof.Proof.LibDotRead
import proofs.«110081_g57251914056251_cont_9to1c4b_270_11_alg».proof.Proof.LibDotReadRhsT

noncomputable section

open scoped BigOperators
open Idealize.ShloMosaic Idealize.ShloMosaic.TcCoe Idealize.ShloMosaic.ValueIdx

namespace Cert.KernelIdeal.Payload

open Cert.KernelIdeal Cert.KernelIdeal.Gen Cert.KernelIdeal.Pieces Cert.LayerSpec

/-- The 16-bit mask of positive weights the body feeds the matrix unit, at one entry: the indicator. -/
theorem mask_apply (x0 : FVec Ideal S1024x4096 .f32) (y : S1024x4096.Idx) :
    (truncf .bf16 (sitofp .f32 (extui 32 (cmpf .ogt x0 (broadcast S1024x4096 (Scalar.ofBits .f32 0x00000000#32))) natLt_1_32))
      bitsLt_bf16_f32 : FVec Ideal S1024x4096 .bf16) y = ind (x0 y) :=
  ind_of_signed (x0 y)

/-- The update of the output block at (p, q). -/
theorem stepOut_apply (x0 : Vec Ideal S1024x4096 .f32) (rows : Vec Ideal S1024x256 .bf16) (acc : Vec Ideal S4096x256 .f32)
    (p : Fin 4096) (q : Fin 256) :
    k0_pay3 x0 rows acc (ix2 p q) = acc (ix2 p q) + ∑ j : Fin 1024, ind (x0 (ix2 j p)) * rows (ix2 j q) := by
  unfold k0_pay3
  simp only [shapeCast_self]
  rw [addf_apply]
  simp only [matmul]
  rw [Ideal.matmul_constant_zero_apply]
  refine congrArg (acc (ix2 p q) + ·) ?_
  refine (Cert.DotRead.sum_contr_lhsT (m := 4096) (k := 1024) (n := 256) dot_S1024x4096_S1024x256_S4096x256_0_0_1_1_n_n_wf _ _ p q).trans ?_
  exact Finset.sum_congr rfl fun j _ => congrArg (· * rows (ix2 j q)) (mask_apply x0 (ix2 j p))

/-- The update of the row of column sums at column p. -/
theorem stepDeg_apply (x0 : Vec Ideal S1024x4096 .f32) (dg : Vec Ideal S1x4096 .f32) (p : Fin 4096) :
    k0_pay4 x0 dg (ix2 0 p) = dg (ix2 0 p) + ∑ j : Fin 1024, x0 (ix2 j p) := by
  unfold k0_pay4
  simp only [shapeCast_self]
  rw [addf_apply]
  refine congrArg (dg (ix2 0 p) + ·) ?_
  rw [shapeCast_addUnit_apply (n := 1) ![4096]]
  refine (Ideal.multiReduction_add_single (φ := .f32) x0 0x00000000#32 reduces_S1024x4096_S4096 (.inl rfl) rfl _).trans ?_
  refine Finset.sum_congr rfl fun j _ => congrArg x0 ?_
  funext a
  apply Fin.ext
  match a with
  | ⟨0, _⟩ => rfl
  | ⟨1, _⟩ => rfl

/-- The finishing step at (p, q). -/
theorem finish_apply (dg : Vec Ideal S1x4096 .f32) (acc : Vec Ideal S4096x256 .f32) (u : Vec Ideal S256x256 .f32)
    (p : Fin 4096) (q : Fin 256) :
    k0_pay5 dg acc u (ix2 p q) = entry u (fun k => acc (ix2 p k)) (dg (ix2 0 p)) q := by
  unfold k0_pay5 entry
  simp only [shapeCast_self]
  rw [maximumf_apply]
  refine congrArg₂ max ?_ rfl
  simp only [matmul]
  rw [Ideal.matmul_constant_zero_apply]
  refine (Cert.DotReadRhsT.sum_contr_rhsT (m := 4096) (k := 256) (n := 256) dot_S4096x256_S256x256_S4096x256_1_1_0_0_n_n_wf _ _ p q).trans ?_
  refine Finset.sum_congr rfl fun k _ => ?_
  rw [divf_apply]
  congr 2
  rw [broadcastTo_apply _ broadcasts_S4096x1_S4096x256 (ix2 p k) (ix2 p 0) (fun a => by
    match a with
    | ⟨0, _⟩ => rfl
    | ⟨1, _⟩ => rfl)]
  exact transpose_apply [1, 0] dg transposes_S1x4096_p1_0_S4096x1 (ix2 p 0) (ix2 0 p) (fun b => by
    match b with
    | ⟨0, _⟩ => rfl
    | ⟨1, _⟩ => rfl)

end Cert.KernelIdeal.Payload

end
-- ==== Proof.Running.lean ====
/- The output block and the row of column sums after each grid point, as running sums over the rows seen so far.

   After point n the block holds, at (p, q), the sum over the first 1024 (n + 1) rows r of
   [weight (r, p) is positive] * feature (r, q), and the row holds at column p the sum of the first 1024 (n + 1)
   weights of that column; after the last point the block has been replaced by the finished layer. -/
import proofs.«110081_g57251914056251_cont_9to1c4b_270_11_alg».proof.Proof.PayloadIdeal

noncomputable section

open scoped BigOperators
open Idealize.ShloMosaic Idealize.ShloMosaic.TcCoe Idealize.SL.Sem Idealize.ShloMosaic.ValueIdx

namespace Cert.KernelIdeal.Running

open Cert.KernelIdeal Cert.KernelIdeal.Gen Cert.KernelIdeal.Pieces Cert.KernelIdeal.Payload Cert.LayerSpec

section anyF

variable {F : FTy → Type} [FloatOps F]
variable (m : (ℓ : Loc nD τ sig) → Buf (Elt F) ℓ)

/-- The block of 1024 rows of the weights the pipeline hands the body at point t. -/
abbrev adjBlk (c : Dev nD) (t : Fin cfg0.N) : Vec F S1024x4096 .f32 := iblk m c 0 t
/-- The whole 16-bit copy of the features, resident at every point. -/
abbrev featAll (c : Dev nD) (t : Fin cfg0.N) : Vec F S4096x256 .bf16 := iblk m c 1 t
/-- The whole linear map, resident at every point. -/
abbrev linAll (c : Dev nD) (t : Fin cfg0.N) : Vec F S256x256 .f32 := iblk m c 2 t

/-- The weights, the 16-bit copy of the features and the linear map as the region finds them. -/
abbrev adjArr (c : Dev nD) : Vec F S4096x4096 .f32 := V m c main_arg1
abbrev featArr (c : Dev nD) : Vec F S4096x256 .bf16 := V m c main_v0
abbrev linArr (c : Dev nD) : Vec F S256x256 .f32 := V m c main_arg2

/-- The output block and the row of column sums after the updates of points 0 to n. -/
def upd (c : Dev nD) : (n : ℕ) → n < cfg0.N → Vec F S4096x256 .f32 × Vec F S1x4096 .f32
  | 0, h => (stepOut (grid0.coords ⟨0, h⟩) (adjBlk m c ⟨0, h⟩) (featAll m c ⟨0, h⟩) k0_pay1, stepDeg (adjBlk m c ⟨0, h⟩) k0_pay2)
  | n + 1, h => (stepOut (grid0.coords ⟨n + 1, h⟩) (adjBlk m c ⟨n + 1, h⟩) (featAll m c ⟨n + 1, h⟩) (upd c n (Nat.lt_of_succ_lt h)).1,
      stepDeg (adjBlk m c ⟨n + 1, h⟩) (upd c n (Nat.lt_of_succ_lt h)).2)

/-- What the frame's run finds after point n: the updates so far, and at the last point the finishing step on top. -/
theorem outsAt_eq (c : Dev nD) : ∀ (n : ℕ) (h : n < cfg0.N),
    outsAt0 m c n h = if n % 4 = 3 then (k0_pay5 (upd m c n h).2 (upd m c n h).1 (linAll m c ⟨n, h⟩), (upd m c n h).2) else upd m c n h
  | 0, h => by
    rw [if_neg (by decide), outsAt0_A m c ⟨0, h⟩ rfl (by show ¬(0 % 4 = 3); decide), upd]
    refine congrArg₂ Prod.mk ?_ ?_
    · exact out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
    · exact deg_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have hN : n + 1 < 4 := lt_of_lt_of_eq h (show cfg0.N = 4 from N_0)
    have h0 : ¬(⟨n + 1, h⟩ : Fin cfg0.N).val % 4 = 0 := by dsimp only; omega
    have ih : ∀ h', outsAt0 m c n h' = upd m c n h' := fun h' => by
      have := outsAt_eq c n h'
      rwa [if_neg (by omega)] at this
    by_cases h3 : (n + 1) % 4 = 3
    · rw [if_pos h3, outsAt0_C m c ⟨n + 1, h⟩ h0 h3]
      dsimp only [Nat.add_one_sub_one]
      rw [ih, upd]
      refine congrArg₂ Prod.mk ?_ ?_
      · exact out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (upd m c n _).1 (upd m c n _).2
      · exact deg_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (upd m c n _).1 (upd m c n _).2
    · rw [if_neg h3, outsAt0_B m c ⟨n + 1, h⟩ h0 h3]
      dsimp only [Nat.add_one_sub_one]
      rw [ih, upd]
      refine congrArg₂ Prod.mk ?_ ?_
      · exact out_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (upd m c n _).1 (upd m c n _).2
      · exact deg_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (upd m c n _).1 (upd m c n _).2

/-- Where the windows' blocks and the body's row offset sit at point t. -/
theorem idx_facts : ∀ t : Fin cfg0.N,
    win0_0.index t (0 : Fin 2) = t.val ∧ win0_0.index t (1 : Fin 2) = 0
    ∧ k0_off1 (grid0.coords t) (0 : Fin 2) = 1024 * t.val ∧ k0_off1 (grid0.coords t) (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row j of the block at point t is row 1024 t + j of the weights. -/
theorem adjBlk_apply (c : Dev nD) (t : Fin cfg0.N) (j : Fin 1024) (p : Fin 4096) (r : Fin 4096) (hr : r.val = 1024 * t.val + j.val) :
    adjBlk m c t (ix2 j p) = adjArr m c (ix2 r p) := by
  obtain ⟨h0, h1, -⟩ := idx_facts t
  show iblk m c 0 t _ = V m c main_arg1 _
  unfold iblk
  rw [View.read_apply]
  show V m c main_arg1 _ = V m c main_arg1 _
  refine congrArg (V m c main_arg1) (funext fun a => Fin.ext ?_)
  match a with
  | ⟨0, _⟩ => show win0_0.index t 0 * 1024 + 1 * j.val = r.val; rw [h0, hr]; omega
  | ⟨1, _⟩ => show win0_0.index t 1 * 4096 + 1 * p.val = p.val; rw [h1]; omega

/-- Row j of the rows the body loads at point t is row 1024 t + j of the resident copy. -/
theorem rowsAt_apply (t : Fin cfg0.N) (x1 : Vec F S4096x256 .bf16) (j : Fin 1024) (q : Fin 256) (r : Fin 4096)
    (hr : r.val = 1024 * t.val + j.val) : rowsAt (grid0.coords t) x1 (ix2 j q) = x1 (ix2 r q) := by
  obtain ⟨-, -, h2, h3, -⟩ := idx_facts t
  unfold rowsAt
  show x1 _ = x1 _
  refine congrArg x1 (funext fun a => Fin.ext ?_)
  match a with
  | ⟨0, _⟩ => show k0_off1 (grid0.coords t) 0 + 1 * j.val = r.val; rw [h2, hr]; omega
  | ⟨1, _⟩ => show k0_off1 (grid0.coords t) 1 + 1 * q.val = q.val; rw [h3]; omega

/-- The resident copy of the features is the whole array. -/
theorem featAll_eq (c : Dev nD) (t : Fin cfg0.N) : featAll m c t = featArr m c := by
  obtain ⟨-, -, -, -, h4, h5, -⟩ := idx_facts t
  funext y
  show iblk m c 1 t y = V m c main_v0 y
  unfold iblk
  rw [View.read_apply]
  show V m c main_v0 _ = V m c main_v0 y
  refine congrArg (V m c main_v0) (funext fun a => Fin.ext ?_)
  match a with
  | ⟨0, _⟩ => show win0_1.index t 0 * 4096 + 1 * (y 0).val = (y 0).val; rw [h4]; omega
  | ⟨1, _⟩ => show win0_1.index t 1 * 256 + 1 * (y 1).val = (y 1).val; rw [h5]; omega

/-- The resident linear map is the whole array. -/
theorem linAll_eq (c : Dev nD) (t : Fin cfg0.N) : linAll m c t = linArr m c := by
  obtain ⟨-, -, -, -, -, -, h6, h7, -⟩ := idx_facts t
  funext y
  show iblk m c 2 t y = V m c main_arg2 y
  unfold iblk
  rw [View.read_apply]
  show V m c main_arg2 _ = V m c main_arg2 y
  refine congrArg (V m c main_arg2) (funext fun a => Fin.ext ?_)
  match a with
  | ⟨0, _⟩ => show win0_2.index t 0 * 256 + 1 * (y 0).val = (y 0).val; rw [h6]; omega
  | ⟨1, _⟩ => show win0_2.index t 1 * 256 + 1 * (y 1).val = (y 1).val; rw [h7]; omega

end anyF

section atIdeal

variable (m : (ℓ : Loc nD τ sig) → Buf (Elt Ideal) ℓ)

/-- The terms of the two contractions, as functions of the row r of the weights. -/
def aggTerm (c : Dev nD) (p : Fin 4096) (q : Fin 256) : Fin 4096 → EReal :=
  fun r => ind (adjArr m c (ix2 r p)) * featArr m c (ix2 r q)
def degTerm (c : Dev nD) (p : Fin 4096) : Fin 4096 → EReal := fun r => adjArr m c (ix2 r p)

theorem rows_lt (t : Fin cfg0.N) (j : Fin 1024) : 1024 * t.val + j.val < 4096 := by
  have := lt_of_lt_of_eq t.isLt (show cfg0.N = 4 from N_0)
  have := j.isLt
  omega

/-- The 1024 terms the update of the output block adds at point t are terms 1024 t to 1024 t + 1023 of the
    whole contraction. -/
theorem block_out (c : Dev nD) (t : Fin cfg0.N) (p : Fin 4096) (q : Fin 256) :
    ∑ j : Fin 1024, ind (adjBlk m c t (ix2 j p)) * rowsAt (grid0.coords t) (featAll m c t) (ix2 j q)
      = ∑ j : Fin 1024, ext (aggTerm m c p q) (1024 * t.val + j.val) :=
  Finset.sum_congr rfl fun j _ => by
    rw [ext_of_lt _ (rows_lt t j), adjBlk_apply m c t j p ⟨_, rows_lt t j⟩ rfl,
      rowsAt_apply t (featAll m c t) j q ⟨_, rows_lt t j⟩ rfl, featAll_eq]
    rfl

/-- The same for the column sums. -/
theorem block_deg (c : Dev nD) (t : Fin cfg0.N) (p : Fin 4096) :
    ∑ j : Fin 1024, adjBlk m c t (ix2 j p) = ∑ j : Fin 1024, ext (degTerm m c p) (1024 * t.val + j.val) :=
  Finset.sum_congr rfl fun j _ => by
    rw [ext_of_lt _ (rows_lt t j), adjBlk_apply m c t j p ⟨_, rows_lt t j⟩ rfl]
    rfl

/-- The zero block and the zero row read zero. -/
theorem zeroBlock_apply (y : S4096x256.Idx) : (k0_pay1 (F := Ideal)) y = 0 := Ideal.ofBits_zero_f32
theorem zeroRow_apply (y : S1x4096.Idx) : (k0_pay2 (F := Ideal)) y = 0 := by
  unfold k0_pay2
  simp only [shapeCast_self]
  exact Ideal.ofBits_zero_f32

/-- After point n the output block holds the contraction over the first 1024 (n + 1) rows. -/
theorem upd_out (c : Dev nD) : ∀ (n : ℕ) (h : n < cfg0.N) (p : Fin 4096) (q : Fin 256),
    (upd m c n h).1 (ix2 p q) = firstBlocks 1024 (ext (aggTerm m c p q)) (n + 1)
  | 0, h, p, q => by
    rw [upd, firstBlocks_succ, firstBlocks_zero]
    refine (stepOut_apply (adjBlk m c ⟨0, h⟩) (rowsAt (grid0.coords ⟨0, h⟩) (featAll m c ⟨0, h⟩)) (k0_pay1 (F := Ideal)) p q).trans ?_
    rw [zeroBlock_apply, block_out m c ⟨0, h⟩ p q]
  | n + 1, h, p, q => by
    rw [upd, firstBlocks_succ 1024 _ (n + 1)]
    refine (stepOut_apply (adjBlk m c ⟨n + 1, h⟩) (rowsAt (grid0.coords ⟨n + 1, h⟩) (featAll m c ⟨n + 1, h⟩))
      (upd m c n (Nat.lt_of_succ_lt h)).1 p q).trans ?_
    rw [upd_out c n _ p q, block_out m c ⟨n + 1, h⟩ p q]

/-- After point n the row holds, per column, the sum of the first 1024 (n + 1) weights. -/
theorem upd_deg (c : Dev nD) : ∀ (n : ℕ) (h : n < cfg0.N) (p : Fin 4096),
    (upd m c n h).2 (ix2 0 p) = firstBlocks 1024 (ext (degTerm m c p)) (n + 1)
  | 0, h, p => by
    rw [upd, firstBlocks_succ, firstBlocks_zero]
    refine (stepDeg_apply (adjBlk m c ⟨0, h⟩) (k0_pay2 (F := Ideal)) p).trans ?_
    rw [zeroRow_apply, block_deg m c ⟨0, h⟩ p]
  | n + 1, h, p => by
    rw [upd, firstBlocks_succ 1024 _ (n + 1)]
    refine (stepDeg_apply (adjBlk m c ⟨n + 1, h⟩) (upd m c n (Nat.lt_of_succ_lt h)).2 p).trans ?_
    rw [upd_deg c n _ p, block_deg m c ⟨n + 1, h⟩ p]

/-- After the last point the output block holds the layer. -/
theorem last_block (c : Dev nD) (h : 3 < cfg0.N) :
    (outsAt0 m c 3 h).1 = layer (featArr m c) (adjArr m c) (linArr m c) := by
  rw [outsAt_eq m c 3 h, if_pos (by decide)]
  funext y
  obtain ⟨p, q, rfl⟩ : ∃ (p : Fin 4096) (q : Fin 256), y = ix2 p q := ⟨y 0, y 1, eq_ix2 y⟩
  refine (finish_apply (upd m c 3 h).2 (upd m c 3 h).1 (linAll m c ⟨3, h⟩) p q).trans ?_
  have hg : (fun k => (upd m c 3 h).1 (ix2 p k)) = agg (featArr m c) (adjArr m c) p := funext fun k => by
    rw [upd_out m c 3 h p k, firstBlocks_all 1024 4 rfl]; rfl
  have hd : (upd m c 3 h).2 (ix2 0 p) = deg (adjArr m c) p := by
    rw [upd_deg m c 3 h p, firstBlocks_all 1024 4 rfl]; rfl
  rw [hg, hd, linAll_eq]
  rfl

end atIdeal

end Cert.KernelIdeal.Running

end
-- ==== Proof.KernelValue.lean ====
/- The kernel's result array. The output block is written back once, after the last grid point, and that block is
   the whole 4096 x 256 array; so the array ends holding the layer of the three argument arrays (the 16-bit copy of
   the features made before the call is, over the extended reals, the features themselves), and the program's result
   is that array with a leading axis of extent one put in front. -/
import proofs.«110081_g57251914056251_cont_9to1c4b_270_11_alg».proof.Proof.Running
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Running Cert.LayerSpec

variable (m : (ℓ : Loc nD τ sig) → Buf (Elt Ideal) ℓ) (ρ : Dev nD → PrngReg)

/-- The layer of the arrays as the region finds them, as contents of the call's result array. -/
abbrev found (c : Dev nD) : Buf (Elt Ideal) ((c : Thread nD τ).loc main_v1) :=
  layer (featArr m c) (adjArr m c) (linArr m c)

/-- The one write-back writes it: the last point's block sits at block index (0, 0) and has the array's extents. -/
theorem flushed_eq (c : Dev nD) (t : Fin cfg0.N) (hf : (cfg0.win 3).flush t = true) :
    (dats m 0 c).flushed 3 t = ((cfg0.win 3).blk t).view.read (Elt Ideal) (found m c) := by
  have h3 : t.val % 4 = 3 := (flush0_3 t).mp hf
  have hN : t.val < 4 := lt_of_lt_of_eq t.isLt (show cfg0.N = 4 from N_0)
  obtain ⟨-, -, -, -, -, -, -, -, h8, h9⟩ := idx_facts t
  obtain ⟨n, hn⟩ := t
  obtain rfl : n = 3 := by dsimp only at h3 hN; omega
  show (cfg0.win 3).cut (grid0.coords ⟨3, hn⟩) ((dats m 0 c).after 3 ⟨3, hn⟩) = _
  rw [after0_3]
  funext j
  show (outsAt0 m c 3 hn).1 j = found m c (((cfg0.win 3).blk ⟨3, hn⟩).view.emb j)
  rw [last_block m c hn]
  refine congrArg (layer (featArr m c) (adjArr m c) (linArr m c)) (funext fun a => Fin.ext ?_)
  match a with
  | ⟨0, _⟩ => show (j 0).val = win0_3.index ⟨3, hn⟩ 0 * 4096 + 1 * (j 0).val; rw [h8]; omega
  | ⟨1, _⟩ => show (j 1).val = win0_3.index ⟨3, hn⟩ 1 * 256 + 1 * (j 1).val; rw [h9]; omega

/-- An index is in point t's block of the result array exactly when each coordinate is in the block's range. -/
theorem mem_outBlock (t : Fin cfg0.N) (i : S4096x256.Idx) :
    i ∈ ((cfg0.win 3).blk t).view.set
      ↔ ∀ a : Fin 2, win0_3.index t a * S4096x256.size a ≤ (i a).val ∧ (i a).val < win0_3.index t a * S4096x256.size a + S4096x256.size a := by
  show i ∈ ((View.whole main_v1).slice (win0_3.rect t)).set ↔ _
  rw [View.set_slice_whole, Rect.mem_set_unit]
  exact Iff.rfl

/-- Every index of the result array is in the last point's block. -/
theorem covered (i : S4096x256.Idx) :
    ∃ t : Fin cfg0.N, (cfg0.win 3).flush t = true ∧ i ∈ ((cfg0.win 3).blk t).view.set := by
  refine ⟨t0_3, (flush0_3 t0_3).mpr rfl, ?_⟩
  obtain ⟨-, -, -, -, -, -, -, -, h8, h9⟩ := idx_facts t0_3
  rw [mem_outBlock]
  have h0 : (i 0).val < 4096 := (i 0).isLt
  have h1 : (i 1).val < 256 := (i 1).isLt
  intro a
  match a with
  | ⟨0, _⟩ => show win0_3.index t0_3 0 * 4096 ≤ (i 0).val ∧ (i 0).val < win0_3.index t0_3 0 * 4096 + 4096; rw [h8]; omega
  | ⟨1, _⟩ => show win0_3.index t0_3 1 * 256 ≤ (i 1).val ∧ (i 1).val < win0_3.index t0_3 1 * 256 + 256; rw [h9]; omega

/-- So the call's result array ends holding the layer of the arrays as the region finds them. -/
theorem final_out (c : Dev nD) : (dats m 0 c).arrAt 3 cfg0.N = found m c :=
  (dats m 0 c).arrAt_eq_of_cover 3 (found m c) (flushed_eq m c) (covered)

/-- The copy of the features made before the call is, over the extended reals, the features. -/
theorem featArr_eq (c : Dev nD) : (featArr m c : S4096x256.Idx → EReal) = m ((c : Thread nD τ).loc main_arg0) := by
  show StableHlo.after hostOps0 (fun b => m (c, b)) (Proc.devRef .tc main_v0) = _
  after_results
  rfl

/-- The last line of the program: a leading axis of extent one in front of a 4096 x 256 array. -/
abbrev lead (y : S4096x256.Idx → EReal) : S1x4096x256.Idx → EReal :=
  broadcastInDim S1x4096x256 ![1, 2] bcast_S4096x256_S1x4096x256_1_2 y

/-- The layer of the three argument arrays as launched. -/
abbrev ofArgs (c : Dev nD) : S4096x256.Idx → EReal :=
  layer (m ((c : Thread nD τ).loc main_arg0)) (m ((c : Thread nD τ).loc main_arg1)) (m ((c : Thread nD τ).loc main_arg2))

theorem found_eq (c : Dev nD) : (found m c : S4096x256.Idx → EReal) = ofArgs m c := by
  show layer (featArr m c) (adjArr m c) (linArr m c) = _
  rw [featArr_eq]
  show layer _ (V m c main_arg1) (V m c main_arg2) = _
  rw [V_main_arg1, V_main_arg2]

/-- What the lines after the call leave in the program's result. -/
theorem tail_eq (c : Dev nD) :
    Pipeline.afterTail₀ cfgs (dats m) 0 (V0 m) [hostOps1] c main_v2 = lead (ofArgs m c) := by
  unfold Pipeline.afterTail₀
  show StableHlo.after hostOps1 _ (Proc.devRef .tc main_v2) = _
  after_results
  refine congrArg lead ?_
  exact ((Pipeline.withArrays_arr spec0 launch0.win.arr_inj c _ _ 3).trans (final_out m c)).trans (found_eq m c)

/-- The run, read: the result is the layer of the argument arrays with the leading axis added; the arguments are kept. -/
theorem run : θ_run defs (onTc (τ := τ) (main (F := Ideal))) ⟨m, fun _ => 0, ρ⟩ (fun r => ∀ c : Dev nD,
      r.2.mem ((c.tc : Thread nD τ).loc main_v2) = lead (ofArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 0).trans ((((dats m) 0 c).arrAt_in 0 rfl _).trans ((A_eq m c 0).trans (V_main_arg1 m c))),
      ((h c).1 2).trans ((((dats m) 0 c).arrAt_in 2 rfl _).trans ((A_eq m c 2).trans (V_main_arg2 m c)))⟩)
    (run_main m ρ)

end Cert.KernelIdeal.Result

end
-- ==== Proof.Reference.lean ====
/- The reference, read one operation at a time, computes the layer of its three argument arrays: the column sums by a
   sum over all 4096 rows, the mask of positive weights transposed and multiplied into the features, the quotient,
   the product with the transposed linear map, and the cut-off at zero. -/
import proofs.«110081_g57251914056251_cont_9to1c4b_270_11_alg».proof.Defs
import proofs.«110081_g57251914056251_cont_9to1c4b_270_11_alg».proof.Proof.Gen.ReferenceIdeal.Read
import proofs.«110081_g57251914056251_cont_9to1c4b_270_11_alg».proof.Proof.LayerSpec

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read Cert.LayerSpec

/-! The reference's index maps, composed, at an entry (p, q) of the result, a contraction index k of the second
    product and a row j of the weights. -/

theorem lin_idx (p : Fin 4096) (q k : Fin 256) : idx_main_v9 (ridx_main_v10 (ix2 p q) k) = ix2 q k :=
  funext fun a => Fin.ext (by match a with | ⟨0, _⟩ => rfl | ⟨1, _⟩ => rfl)

theorem mask_idx (p : Fin 4096) (q k : Fin 256) (j : Fin 4096) :
    idx_main_v4 (lidx_main_v5 (lidx_main_v10 (ix2 p q) k) j) = ix2 j p :=
  funext fun a => Fin.ext (by match a with | ⟨0, _⟩ => rfl | ⟨1, _⟩ => rfl)

theorem feat_idx (p : Fin 4096) (q k : Fin 256) (j : Fin 4096) :
    ridx_main_v5 (lidx_main_v10 (ix2 p q) k) j = ix2 j k :=
  funext fun a => Fin.ext (by match a with | ⟨0, _⟩ => rfl | ⟨1, _⟩ => rfl)

theorem deg_idx (p : Fin 4096) (q k : Fin 256) (j : Fin 4096) :
    idx_main_v0 (idx_main_v6 (idx_main_v7 (lidx_main_v10 (ix2 p q) k))) j = ix2 j p :=
  funext fun a => Fin.ext (by match a with | ⟨0, _⟩ => rfl | ⟨1, _⟩ => rfl)

/-- The reference's array before its last line is the layer. -/
theorem relu_eq_layer (x0 : SFeat.Idx → EReal) (x1 : SAdj.Idx → EReal) (x2 : SLin.Idx → EReal) :
    val_main_v11 (F := Ideal) x0 x1 x2 = layer x0 x1 x2 := by
  funext y
  obtain ⟨p, q, rfl⟩ : ∃ (p : Fin 4096) (q : Fin 256), y = ix2 p q := ⟨y 0, y 1, eq_ix2 y⟩
  rw [val_main_v11_apply, val_main_v10_apply, val_main_call0_v0_apply, val_main_call0_cst_apply]
  simp only [val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, lin_idx, mask_idx, feat_idx, deg_idx]
  unfold layer entry agg deg ind
  simp only [Ideal.maximumf_def, Ideal.hostDivf_def, Ideal.ofBits_def, Ideal.ofBits_zero_f32, zero_add]
  rfl

/-- The last line of the reference: a leading axis of extent one in front of a 4096 x 256 array. -/
abbrev lead (y : S4096x256.Idx → EReal) : S1x4096x256.Idx → EReal :=
  broadcastInDim S1x4096x256 ![1, 2] bcast_S4096x256_S1x4096x256_1_2 y

/-- The reference's result: the layer with a leading axis of extent one in front. -/
theorem result_eq (x0 : SFeat.Idx → EReal) (x1 : SAdj.Idx → EReal) (x2 : SLin.Idx → EReal) :
    val_main_v12 (F := Ideal) x0 x1 x2 = lead (layer x0 x1 x2) := by
  unfold val_main_v12
  rw [relu_eq_layer]

end Cert.ReferenceIdeal.RefValue

end
-- ==== Proof.lean ====
/- The five claims.

   Both programs compute one layer of a graph network. With a the 4096 x 4096 weights, x the 4096 x 256 features
   and u the 256 x 256 linear map, entry (i, d) of the result is
       max (sum over k of (agg i k / deg i) * u (d, k)) 0,
   where deg i is the sum of column i of a and agg i k the sum of x (j, k) over the rows j with a (j, i) > 0.

   The kernel walks the weights in four blocks of 1024 rows. At each block it adds the block's share of agg to an
   output block that stays in place across the four grid points, and the block's share of deg to a carried row;
   after the fourth block it divides, applies the linear map and cuts off at zero. Over the extended reals the
   16-bit copies it feeds the matrix unit are the values themselves, and addition is commutative and associative, so
   the four partial sums of 1024 terms are the reference's sum of 4096 terms; no finiteness of the inputs is used.
   The reference transposes the mask and the linear map before its two products where the kernel contracts along the
   corresponding axes directly: the same sums, index by index. -/
import proofs.«110081_g57251914056251_cont_9to1c4b_270_11_alg».proof.Defs
import proofs.«110081_g57251914056251_cont_9to1c4b_270_11_alg».proof.Proof.Gen.Kernel
import proofs.«110081_g57251914056251_cont_9to1c4b_270_11_alg».proof.Proof.Gen.Kernel.Frame
import proofs.«110081_g57251914056251_cont_9to1c4b_270_11_alg».proof.Proof.Gen.KernelIdeal
import proofs.«110081_g57251914056251_cont_9to1c4b_270_11_alg».proof.Proof.Gen.KernelIdeal.Frame
import proofs.«110081_g57251914056251_cont_9to1c4b_270_11_alg».proof.Proof.Gen.ReferenceIdeal
import proofs.«110081_g57251914056251_cont_9to1c4b_270_11_alg».proof.Proof.Gen.ReferenceIdeal.Run
import proofs.«110081_g57251914056251_cont_9to1c4b_270_11_alg».proof.Proof.Gen.ReferenceIdeal.Read
import proofs.«110081_g57251914056251_cont_9to1c4b_270_11_alg».proof.Proof.Gen.Pre_finite_inputs
import proofs.«110081_g57251914056251_cont_9to1c4b_270_11_alg».proof.Proof.KernelValue
import proofs.«110081_g57251914056251_cont_9to1c4b_270_11_alg».proof.Proof.Reference
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and no operation writes an argument. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was printed for the extended reals. -/
theorem preserves : Cert.preserves_Kernel_KernelIdeal := trivial

/-- From arguments that agree, both programs end with the layer of those arguments, a leading axis of extent one in
    front: the kernel by its four running sums, the reference by its whole sums. -/
theorem algebraic : Cert.algebraic_KernelIdeal_ReferenceIdeal := by
  intro m ρ m' ρ' _ hagree
  refine ⟨fun c => Cert.KernelIdeal.Result.lead (Cert.KernelIdeal.Result.ofArgs m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
